-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x6 : Shape := ⟨2, ![1048576, 6]⟩
abbrev S64x3 : Shape := ⟨2, ![64, 3]⟩
abbrev S64x64 : Shape := ⟨2, ![64, 64]⟩
abbrev S16x64 : Shape := ⟨2, ![16, 64]⟩
abbrev S64x18 : Shape := ⟨2, ![64, 18]⟩
abbrev S3x64 : Shape := ⟨2, ![3, 64]⟩
abbrev S_ : Shape := ⟨0, ![]⟩

class Facts : Prop where
  bcast_S_S1048576x6 : S_.BroadcastsInDim S1048576x6 (![] : Fin 0 → Fin S1048576x6.rank)
  reducesTo_S1048576x6_S_d0_1 : S1048576x6.ReducesTo [0, 1] S_
  h_S_ : 0 < S_.numel
  bcast_S_S64x3 : S_.BroadcastsInDim S64x3 (![] : Fin 0 → Fin S64x3.rank)
  reducesTo_S64x3_S_d0_1 : S64x3.ReducesTo [0, 1] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_
  bcast_S_S64x18 : S_.BroadcastsInDim S64x18 (![] : Fin 0 → Fin S64x18.rank)
  reducesTo_S64x18_S_d0_1 : S64x18.ReducesTo [0, 1] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg7 : FVec F S3x64 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  main_v38

def fn_part1 {F : FTy → Type} [FloatOps F] (main_arg4 : FVec F S64x18 .f32) (main_arg5 : FVec F S64x64 .f32) (main_arg6 : FVec F S64x64 .f32) (main_arg7 : FVec F S3x64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64x18 .f32 := Host.absf main_arg4
  let main_cst_6 : FVec F S_ .f32 := constant S_ .f32 0x7F800000#32
  let main_v20 : FVec F S64x18 .f32 := broadcastInDim S64x18 ![] bcast_S_S64x18 main_cst_6
  let main_v21 : IVec S64x18 1 := cmpf .olt main_v19 main_v20
  let main_c_7 : IVec S_ 1 := constantI S_ 1 1#1
  let main_v22 : IVec S_ 1 := (fun x v => Host.reduce IntOp.andi x v reducesTo_S64x18_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S1048576x6 .f32) (main_arg1 : FVec F S64x3 .f32) (main_arg2 : FVec F S64x64 .f32) (main_arg3 : FVec F S16x64 .f32) (main_arg4 : FVec F S64x18 .f32) (main_arg5 : FVec F S64x64 .f32) (main_arg6 : FVec F S64x64 .f32) (main_arg7 : FVec F S3x64 .f32) : IVec S_ 1 :=
  let main_v0 : FVec F S1048576x6 .f32 := Host.absf main_arg0
  let main_cst : FVec F S_ .f32 := constant S_ .f32 0x7F800000#32
  let main_v1 : FVec F S1048576x6 .f32 := broadcastInDim S1048576x6 ![] bcast_S_S1048576x6 main_cst
  let main_v2 : IVec S1048576x6 1 := cmpf .olt main_v0 main_v1
  let main_c : IVec S_ 1 := constantI S_ 1 1#1
  let main_v3 : IVec S_ 1 := (fun x v => Host.reduce IntOp.andi x v reducesTo_S1048576x6_S_d0_1 h_S_) main_v2 main_c
  let main_v4 : FVec F S64x3 .f32 := Host.absf main_arg1
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg6 main_arg7 main_v13 main_v16
-- ==== Kernel.lean ====
abbrev S1048576x6 : Shape := ⟨2, ![1048576, 6]⟩
abbrev S64x3 : Shape := ⟨2, ![64, 3]⟩
abbrev S64x64 : Shape := ⟨2, ![64, 64]⟩
abbrev S16x64 : Shape := ⟨2, ![16, 64]⟩
abbrev S64x18 : Shape := ⟨2, ![64, 18]⟩
abbrev S3x64 : Shape := ⟨2, ![3, 64]⟩
abbrev S64x16 : Shape := ⟨2, ![64, 16]⟩
abbrev S18x64 : Shape := ⟨2, ![18, 64]⟩
abbrev S1048576x4 : Shape := ⟨2, ![1048576, 4]⟩
abbrev S4096x6 : Shape := ⟨2, ![4096, 6]⟩
abbrev S4096x4 : Shape := ⟨2, ![4096, 4]⟩
abbrev S4096x3 : Shape := ⟨2, ![4096, 3]⟩
abbrev S4096x64 : Shape := ⟨2, ![4096, 64]⟩
abbrev S4096x16 : Shape := ⟨2, ![4096, 16]⟩
abbrev S4096x1 : Shape := ⟨2, ![4096, 1]⟩
abbrev S4096x15 : Shape := ⟨2, ![4096, 15]⟩
abbrev S4096x18 : Shape := ⟨2, ![4096, 18]⟩

abbrev nBuf : Space → Nat
  | .hbm => 16
  | .vmem => 11
  | .smem => 0
  | _ => 0

abbrev bufTy : (tb : Table) → Fin (tcTables nBuf tb) → BufTy
  | .hbm, ⟨0, _⟩ => ⟨S1048576x6, .f32⟩
  | .hbm, ⟨1, _⟩ => ⟨S64x3, .f32⟩
  | .hbm, ⟨2, _⟩ => ⟨S64x64, .f32⟩
  | .hbm, ⟨3, _⟩ => ⟨S16x64, .f32⟩
  | .hbm, ⟨4, _⟩ => ⟨S64x18, .f32⟩
  | .hbm, ⟨5, _⟩ => ⟨S64x64, .f32⟩
  | .hbm, ⟨6, _⟩ => ⟨S64x64, .f32⟩
  | .hbm, ⟨7, _⟩ => ⟨S3x64, .f32⟩
  | .hbm, ⟨8, _⟩ => ⟨S3x64, .f32⟩
  | .hbm, ⟨9, _⟩ => ⟨S64x64, .f32⟩
  | .hbm, ⟨10, _⟩ => ⟨S64x16, .f32⟩
  | .hbm, ⟨11, _⟩ => ⟨S18x64, .f32⟩
  | .hbm, ⟨12, _⟩ => ⟨S64x64, .f32⟩
  | .hbm, ⟨13, _⟩ => ⟨S64x64, .f32⟩
  | .hbm, ⟨14, _⟩ => ⟨S64x3, .f32⟩
  | .hbm, ⟨15, _⟩ => ⟨S1048576x4, .f32⟩
  | .local _ .vmem, ⟨0, _⟩ => ⟨S4096x6, .f32⟩
  | .local _ .vmem, ⟨1, _⟩ => ⟨S4096x6, .f32⟩
  | .local _ .vmem, ⟨2, _⟩ => ⟨S3x64, .f32⟩
  | .local _ .vmem, ⟨3, _⟩ => ⟨S64x64, .f32⟩
  | .local _ .vmem, ⟨4, _⟩ => ⟨S64x16, .f32⟩
  | .local _ .vmem, ⟨5, _⟩ => ⟨S18x64, .f32⟩
  | .local _ .vmem, ⟨6, _⟩ => ⟨S64x64, .f32⟩
  | .local _ .vmem, ⟨7, _⟩ => ⟨S64x64, .f32⟩
  | .local _ .vmem, ⟨8, _⟩ => ⟨S64x3, .f32⟩
  | .local _ .vmem, ⟨9, _⟩ => ⟨S4096x4, .f32⟩
  | .local _ .vmem, ⟨10, _⟩ => ⟨S4096x4, .f32⟩
  | _, _ => ⟨S1048576x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S18x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S64x3_S3x64_1_0 : S64x3.Transposes [1, 0] S3x64
  transposes_S64x64_S64x64_1_0 : S64x64.Transposes [1, 0] S64x64
  transposes_S16x64_S64x16_1_0 : S16x64.Transposes [1, 0] S64x16
  transposes_S64x18_S18x64_1_0 : S64x18.Transposes [1, 0] S18x64
  transposes_S3x64_S64x3_1_0 : S3x64.Transposes [1, 0] S64x3
  inb_S4096x6_S4096x6_0_0 : ∀ a, (![0, 0] : Fin 2 → Nat) a + S4096x6.size a ≤ S4096x6.size a
  h_S4096x6 : 0 < S4096x6.numel
  slices_S4096x6_o0_0_S4096x3 : S4096x6.Slices ![0, 0] S4096x3
  slices_S4096x6_o0_3_S4096x3 : S4096x6.Slices ![0, 3] S4096x3
  inb_S3x64_S3x64_0_0 : ∀ a, (![0, 0] : Fin 2 → Nat) a + S3x64.size a ≤ S3x64.size a
  h_S3x64 : 0 < S3x64.numel
  shapeCasts_S3x64_S3x64 : S3x64.ShapeCasts S3x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S18x64_S18x64_0_0 : ∀ a, (![0, 0] : Fin 2 → Nat) a + S18x64.size a ≤ S18x64.size a
  h_S18x64 : 0 < S18x64.numel
  shapeCasts_S18x64_S18x64 : S18x64.ShapeCasts S18x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  slices_S4096x16_o0_0_S4096x1 : S4096x16.Slices ![0, 0] S4096x1
  slices_S4096x16_o0_1_S4096x15 : S4096x16.Slices ![0, 1] S4096x15
  concatenates_S4096x3_S4096x15_S4096x18_d1 : Shape.Concatenates [S4096x3, S4096x15] S4096x18 1
  concatenates_S4096x3_S4096x1_S4096x4_d1 : Shape.Concatenates [S4096x3, S4096x1] S4096x4 1
  inb_S4096x4_S4096x4_0_0 : ∀ a, (![0, 0] : Fin 2 → Nat) a + S4096x4.size a ≤ S4096x4.size a
  h_S4096x4 : 0 < S4096x4.numel
  dot_S4096x3_S3x64_S4096x64_1_0_0_1_n_n_wf : DotDims.WF S4096x3 S3x64 S4096x64 [1] [0] [0] [1] [] []
  dot_S4096x64_S64x64_S4096x64_1_0_0_1_n_n_wf : DotDims.WF S4096x64 S64x64 S4096x64 [1] [0] [0] [1] [] []
  dot_S4096x64_S64x16_S4096x16_1_0_0_1_n_n_wf : DotDims.WF S4096x64 S64x16 S4096x16 [1] [0] [0] [1] [] []
  dot_S4096x18_S18x64_S4096x64_1_0_0_1_n_n_wf : DotDims.WF S4096x18 S18x64 S4096x64 [1] [0] [0] [1] [] []
  dot_S4096x64_S64x3_S4096x3_1_0_0_1_n_n_wf : DotDims.WF S4096x64 S64x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x6.size a ≤ S1048576x6.size a
  hwx0_0 : ∀ i : grid0.Coords, EltTy.bits .f32 = 32 ∨ (Rect.block (s := S1048576x6) S4096x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S18x64.size a ≤ S18x64.size a
  hwx0_4 : ∀ i : grid0.Coords, EltTy.bits .f32 = 32 ∨ (Rect.block (s := S18x64) S18x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x3.size a ≤ S64x3.size a
  hwx0_7 : ∀ i : grid0.Coords, EltTy.bits .f32 = 32 ∨ (Rect.block (s := S64x3) S64x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x4.size a ≤ S1048576x4.size a
  hwx0_8 : ∀ i : grid0.Coords, EltTy.bits .f32 = 32 ∨ (Rect.block (s := S1048576x4) S4096x4.size (cc0_transform_8 i) (hinb0_8 i)).WholeWords (EltTy.packing .f32)

variable [Facts₀]

def dot_S4096x3_S3x64_S4096x64_1_0_0_1_n_n : DotDims S4096x3 S3x64 S4096x64 where
  lhsContracting := [1]
  rhsContracting := [0]
  lhsNonContracting := [0]
  rhsNonContracting := [1]
  lhsBatch := []
  rhsBatch := []
  wf := dot_S4096x3_S3x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x18_S18x64_S4096x64_1_0_0_1_n_n : DotDims S4096x18 S18x64 S4096x64 where
  lhsContracting := [1]
  rhsContracting := [0]
  lhsNonContracting := [0]
  rhsNonContracting := [1]
  lhsBatch := []
  rhsBatch := []
  wf := dot_S4096x18_S18x64_S4096x64_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_arg0) S4096x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S18x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S64x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S4096x4.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1048576x6 : Shape := ⟨2, ![1048576, 6]⟩
abbrev S64x3 : Shape := ⟨2, ![64, 3]⟩
abbrev S64x64 : Shape := ⟨2, ![64, 64]⟩
abbrev S16x64 : Shape := ⟨2, ![16, 64]⟩
abbrev S64x18 : Shape := ⟨2, ![64, 18]⟩
abbrev S3x64 : Shape := ⟨2, ![3, 64]⟩
abbrev S1048576x3 : Shape := ⟨2, ![1048576, 3]⟩
abbrev S1048576x64 : Shape := ⟨2, ![1048576, 64]⟩
abbrev S_ : Shape := ⟨0, ![]⟩
abbrev S64x16 : Shape := ⟨2, ![64, 16]⟩
abbrev S1048576x16 : Shape := ⟨2, ![1048576, 16]⟩
abbrev S1048576x1 : Shape := ⟨2, ![1048576, 1]⟩
abbrev S1048576 : Shape := ⟨1, ![1048576]⟩
abbrev S1048576x15 : Shape := ⟨2, ![1048576, 15]⟩
abbrev S1048576x18 : Shape := ⟨2, ![1048576, 18]⟩
abbrev S18x64 : Shape := ⟨2, ![18, 64]⟩
abbrev S1048576x4 : Shape := ⟨2, ![1048576, 4]⟩

abbrev nBuf : Space → Nat
  | .hbm => 45
  | .vmem => 0
  | .smem => 0
  | _ => 0

abbrev bufTy : (tb : Table) → Fin (tcTables nBuf tb) → BufTy
  | .hbm, ⟨0, _⟩ => ⟨S1048576x6, .f32⟩
  | .hbm, ⟨1, _⟩ => ⟨S64x3, .f32⟩
  | .hbm, ⟨2, _⟩ => ⟨S64x64, .f32⟩
  | .hbm, ⟨3, _⟩ => ⟨S16x64, .f32⟩
  | .hbm, ⟨4, _⟩ => ⟨S64x18, .f32⟩
  | .hbm, ⟨5, _⟩ => ⟨S64x64, .f32⟩
  | .hbm, ⟨6, _⟩ => ⟨S64x64, .f32⟩
  | .hbm, ⟨7, _⟩ => ⟨S3x64, .f32⟩
  | .hbm, ⟨8, _⟩ => ⟨S1048576x3, .f32⟩
  | .hbm, ⟨9, _⟩ => ⟨S1048576x3, .f32⟩
  | .hbm, ⟨10, _⟩ => ⟨S3x64, .f32⟩
  | .hbm, ⟨11, _⟩ => ⟨S1048576x64, .f32⟩
  | .hbm, ⟨12, _⟩ => ⟨S_, .f32⟩
  | .hbm, ⟨13, _⟩ => ⟨S1048576x64, .f32⟩
  | .hbm, ⟨14, _⟩ => ⟨S1048576x64, .f32⟩
  | .hbm, ⟨15, _⟩ => ⟨S64x64, .f32⟩
  | .hbm, ⟨16, _⟩ => ⟨S1048576x64, .f32⟩
  | .hbm, ⟨17, _⟩ => ⟨S_, .f32⟩
  | .hbm, ⟨18, _⟩ => ⟨S1048576x64, .f32⟩
  | .hbm, ⟨19, _⟩ => ⟨S1048576x64, .f32⟩
  | .hbm, ⟨20, _⟩ => ⟨S64x16, .f32⟩
  | .hbm, ⟨21, _⟩ => ⟨S1048576x16, .f32⟩
  | .hbm, ⟨22, _⟩ => ⟨S1048576x1, .f32⟩
  | .hbm, ⟨23, _⟩ => ⟨S1048576, .f32⟩
  | .hbm, ⟨24, _⟩ => ⟨S1048576x15, .f32⟩
  | .hbm, ⟨25, _⟩ => ⟨S1048576x18, .f32⟩
  | .hbm, ⟨26, _⟩ => ⟨S18x64, .f32⟩
  | .hbm, ⟨27, _⟩ => ⟨S1048576x64, .f32⟩
  | .hbm, ⟨28, _⟩ => ⟨S_, .f32⟩
  | .hbm, ⟨29, _⟩ => ⟨S1048576x64, .f32⟩
  | .hbm, ⟨30, _⟩ => ⟨S1048576x64, .f32⟩
  | .hbm, ⟨31, _⟩ => ⟨S64x64, .f32⟩
  | .hbm, ⟨32, _⟩ => ⟨S1048576x64, .f32⟩
  | .hbm, ⟨33, _⟩ => ⟨S_, .f32⟩
  | .hbm, ⟨34, _⟩ => ⟨S1048576x64, .f32⟩
  | .hbm, ⟨35, _⟩ => ⟨S1048576x64, .f32⟩
  | .hbm, ⟨36, _⟩ => ⟨S64x64, .f32⟩
  | .hbm, ⟨37, _⟩ => ⟨S1048576x64, .f32⟩
  | .hbm, ⟨38, _⟩ => ⟨S_, .f32⟩
  | .hbm, ⟨39, _⟩ => ⟨S1048576x64, .f32⟩
  | .hbm, ⟨40, _⟩ => ⟨S1048576x64, .f32⟩
  | .hbm, ⟨41, _⟩ => ⟨S64x3, .f32⟩
  | .hbm, ⟨42, _⟩ => ⟨S1048576x3, .f32⟩
  | .hbm, ⟨43, _⟩ => ⟨S1048576x1, .f32⟩
  | .hbm, ⟨44, _⟩ => ⟨S1048576x4, .f32⟩
  | _, _ => ⟨S1048576x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call1_cst : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call2_cst : Ref sig .tc := ⟨.hbm, 28, rfl⟩
abbrev main_call2_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call3_cst : Ref sig .tc := ⟨.hbm, 33, rfl⟩
abbrev main_call3_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call4_cst : Ref sig .tc := ⟨.hbm, 38, rfl⟩
abbrev main_call4_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  slices_S1048576x6_S1048576x3_0_0 : S1048576x6.Slices ![0, 0] S1048576x3
  slices_S1048576x6_S1048576x3_0_3 : S1048576x6.Slices ![0, 3] S1048576x3
  transposes_S64x3_S3x64_1_0 : S64x3.Transposes [1, 0] S3x64
  bcast_S_S1048576x64 : S_.BroadcastsInDim S1048576x64 (![] : Fin 0 → Fin S1048576x64.rank)
  transposes_S64x64_S64x64_1_0 : S64x64.Transposes [1, 0] S64x64
  transposes_S16x64_S64x16_1_0 : S16x64.Transposes [1, 0] S64x16
  slices_S1048576x16_S1048576x1_0_0 : S1048576x16.Slices ![0, 0] S1048576x1
  shapeCasts_S1048576x1_S1048576 : S1048576x1.ShapeCasts S1048576
  slices_S1048576x16_S1048576x15_0_1 : S1048576x16.Slices ![0, 1] S1048576x15
  concatenates_S1048576x3_S1048576x15_S1048576x18_d1 : Shape.Concatenates [S1048576x3, S1048576x15] S1048576x18 1
  transposes_S64x18_S18x64_1_0 : S64x18.Transposes [1, 0] S18x64
  transposes_S3x64_S64x3_1_0 : S3x64.Transposes [1, 0] S64x3
  bcast_S1048576_S1048576x1_0 : S1048576.BroadcastsInDim S1048576x1 (![0] : Fin 1 → Fin S1048576x1.rank)
  concatenates_S1048576x3_S1048576x1_S1048576x4_d1 : Shape.Concatenates [S1048576x3, S1048576x1] S1048576x4 1
  dot_S1048576x3_S3x64_S1048576x64_1_0_0_1_n_n_wf : DotDims.WF S1048576x3 S3x64 S1048576x64 [1] [0] [0] [1] [] []
  dot_S1048576x64_S64x64_S1048576x64_1_0_0_1_n_n_wf : DotDims.WF S1048576x64 S64x64 S1048576x64 [1] [0] [0] [1] [] []
  dot_S1048576x64_S64x16_S1048576x16_1_0_0_1_n_n_wf : DotDims.WF S1048576x64 S64x16 S1048576x16 [1] [0] [0] [1] [] []
  dot_S1048576x18_S18x64_S1048576x64_1_0_0_1_n_n_wf : DotDims.WF S1048576x18 S18x64 S1048576x64 [1] [0] [0] [1] [] []
  dot_S1048576x64_S64x3_S1048576x3_1_0_0_1_n_n_wf : DotDims.WF S1048576x64 S64x3 S1048576x3 [1] [0] [0] [1] [] []

variable [Facts₀]

def dot_S1048576x3_S3x64_S1048576x64_1_0_0_1_n_n : DotDims S1048576x3 S3x64 S1048576x64 where
  lhsContracting := [1]
  rhsContracting := [0]
  lhsNonContracting := [0]
  rhsNonContracting := [1]
  lhsBatch := []
  rhsBatch := []
  wf := dot_S1048576x3_S3x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S1048576x18_S18x64_S1048576x64_1_0_0_1_n_n : DotDims S1048576x18 S18x64 S1048576x64 where
  lhsContracting := [1]
  rhsContracting := [0]
  lhsNonContracting := [0]
  rhsNonContracting := [1]
  lhsBatch := []
  rhsBatch := []
  wf := dot_S1048576x18_S18x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«159614_j6957847019903_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibSideBySide.lean ====
/-
  Two arrays side by side, read at coordinates.

  Concatenating an `[n, a]` array and an `[n, b]` array along the column axis gives an `[n, c]` array, `c = a + b`, whose
  entry `(p, q)` is the left array's `(p, q)` when `q < a` and the right array's `(p, q - a)` otherwise.
-/
import Idealize.ShloMosaic.Lib.Pipeline.Value
import Idealize.ShloMosaic.Lib.ValueIdx

noncomputable section

namespace Idealize.ShloMosaic.SideBySide

open Idealize.ShloMosaic Idealize.ShloMosaic.ValueIdx

variable {α : Type} {n a b c : Nat}

/-- A column of the left part reads the left array. -/
theorem apply_left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : q.val < a) :
    concatenate ⟨2, ![n, c]⟩ 1 [⟨⟨2, ![n, a]⟩, A⟩, ⟨⟨2, ![n, b]⟩, B⟩] h (ix2 p q) = A (ix2 p ⟨q.val, hq⟩) :=
  concatenate_pair_apply_left (1 : Fin 2) A B h (ix2 p q) rfl (ix2 p ⟨q.val, hq⟩) (fun ax => by
    match ax with
    | ⟨0, _⟩ => rfl
    | ⟨1, _⟩ => rfl)

/-- A column of the right part reads the right array, the left part's width less. -/
theorem apply_right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : a ≤ q.val)
    (hb : q.val - a < b) :
    concatenate ⟨2, ![n, c]⟩ 1 [⟨⟨2, ![n, a]⟩, A⟩, ⟨⟨2, ![n, b]⟩, B⟩] h (ix2 p q) = B (ix2 p ⟨q.val - a, hb⟩) :=
  concatenate_pair_apply_right (1 : Fin 2) A B h (ix2 p q) rfl rfl (ix2 p ⟨q.val - a, hb⟩) (fun ax hax => by
    match ax with
    | ⟨0, _⟩ => rfl
    | ⟨1, _⟩ => exact absurd rfl hax) (by
    show (q.val - a) + a = q.val
    omega)

end Idealize.ShloMosaic.SideBySide

end
-- ==== Proof.LibRowwise.lean ====
/-
  Layers of a network that acts on each row by itself, read along one row.

  An `[R, n]` array is a stack of `R` rows. A product with a fixed `[K, N]` matrix, an entrywise maximum with a constant,
  a block of consecutive columns, and two arrays set side by side all act on every row separately: row `p` of the result
  is a function of row `p` of the operand alone. This file names those four functions of one row (`dense`, `floorAt`,
  `cols`, `join`) and reads the array operations, at the ideal instance, one row at a time. A chain of such layers is then
  read off by rewriting from the outside in, and two programs that tile the rows differently (a kernel that handles a
  block of rows per grid point, a reference that handles all rows at once) meet at the same function of a row.
-/
import Idealize.ShloMosaic.Lib.Pipeline.Value
import Idealize.ShloMosaic.Lib.ValueIdx
import Idealize.ShloMosaic.PureOps.Ideal.Laws
import proofs.«159614_j6957847019903_1_alg».proof.Proof.LibPlainDotAny
import proofs.«159614_j6957847019903_1_alg».proof.Proof.LibSideBySide

noncomputable section

open scoped BigOperators

namespace Idealize.ShloMosaic.Rowwise

open Idealize.ShloMosaic Idealize.ShloMosaic.ValueIdx

/-! ## Functions of one row -/

/-- A row times a matrix: entry `c` is the sum over `k` of `a k * W k c`. -/
def dense {K N : Nat} (a : Fin K → EReal) (W : Fin K → Fin N → EReal) : Fin N → EReal :=
  fun c => ∑ k : Fin K, a k * W k c

/-- Every entry raised to at least `z`. -/
def floorAt {N : Nat} (z : EReal) (a : Fin N → EReal) : Fin N → EReal :=
  fun c => max (a c) z

/-- The `k` consecutive entries of a row that start at `off`. -/
def cols {n : Nat} (off k : Nat) (h : off + k ≤ n) (a : Fin n → EReal) : Fin k → EReal :=
  fun j => a ⟨off + j.val, by have := j.isLt; omega⟩

/-- Two rows end to end. -/
def join {n₁ n₂ n : Nat} (h : n = n₁ + n₂) (a : Fin n₁ → EReal) (b : Fin n₂ → EReal) : Fin n → EReal :=
  fun q => if hq : q.val < n₁ then a ⟨q.val, hq⟩ else b ⟨q.val - n₁, by have := q.isLt; omega⟩

/-! ## Rows of an array, and a matrix by its two coordinates -/

/-- Row `p` of an `[R, n]` array. -/
def row {R n : Nat} (A : (⟨2, ![R, n]⟩ : Shape).Idx → EReal) (p : Fin R) : Fin n → EReal :=
  fun k => A (ix2 p k)

/-- A `[K, N]` array by its two coordinates. -/
def mat {K N : Nat} (B : (⟨2, ![K, N]⟩ : Shape).Idx → EReal) : Fin K → Fin N → EReal :=
  fun k c => B (ix2 k c)

theorem row_apply {R n : Nat} (A : (⟨2, ![R, n]⟩ : Shape).Idx → EReal) (p : Fin R) (k : Fin n) : row A p k = A (ix2 p k) := rfl

/-! ## The array operations, one row at a time -/

/-- A product into a zero accumulator: row `p` of the result is row `p` of the left operand times the right operand. -/
theorem row_matmul {M K N : Nat} {φ₁ φ₂ : FTy} (prec : Option ContractPrecision) (A : FVec Ideal ⟨2, ![M, K]⟩ φ₁)
    (B : FVec Ideal ⟨2, ![K, N]⟩ φ₂) (p : Fin M) :
    row (FloatOps.matmul (DotDims.plain M K N) prec A B (constant ⟨2, ![M, N]⟩ .f32 0x00000000#32)) p
      = dense (row A p) (mat B) := by
  funext c
  exact PlainDot.matmul_zero_apply_any M K N prec A B (ix2 p c)

/-- The host's product: the same function of the row. -/
theorem row_dotGeneral {M K N : Nat} {φ₁ φ₂ : FTy} (prec : Option ContractPrecision) (sched : HostSchedule)
    (A : FVec Ideal ⟨2, ![M, K]⟩ φ₁) (B : FVec Ideal ⟨2, ![K, N]⟩ φ₂) (p : Fin M) :
    row (FloatOps.dotGeneral (DotDims.plain M K N) prec sched A B) p = dense (row A p) (mat B) := by
  funext c
  exact PlainDot.dotGeneral_apply_any M K N prec sched A B (ix2 p c)

/-- An entrywise maximum with an array that holds `z` everywhere. -/
theorem row_maximumf_const {R n : Nat} {φ : FTy} (A Z : FVec Ideal ⟨2, ![R, n]⟩ φ) (z : EReal) (hZ : ∀ i, Z i = z) (p : Fin R) :
    row (maximumf A Z) p = floorAt z (row A p) := by
  funext c
  show max (A (ix2 p c)) (Z (ix2 p c)) = max (A (ix2 p c)) z
  rw [hZ]

/-- A change of float format does nothing at the ideal instance. -/
theorem row_truncf {R n : Nat} {φ ψ : FTy} (A : FVec Ideal ⟨2, ![R, n]⟩ φ) (h : ψ.bits < φ.bits) (p : Fin R) :
    row (truncf ψ A h : FVec Ideal ⟨2, ![R, n]⟩ ψ) p = row A p := rfl

theorem mat_truncf {K N : Nat} {φ ψ : FTy} (B : FVec Ideal ⟨2, ![K, N]⟩ φ) (h : ψ.bits < φ.bits) :
    mat (truncf ψ B h : FVec Ideal ⟨2, ![K, N]⟩ ψ) = mat B := rfl

/-- An entrywise maximum with a scalar repeated over the array. -/
theorem row_maximumf_broadcast {R n : Nat} {φ : FTy} (A : FVec Ideal ⟨2, ![R, n]⟩ φ) (z : Ideal φ) (p : Fin R) :
    row (maximumf A (broadcast ⟨2, ![R, n]⟩ z)) p = floorAt z (row A p) := rfl

/-- An entrywise maximum with a rank-0 constant laid over the array, the host's spelling of the same. -/
theorem row_maximumf_scalarConstant {R n : Nat} (A : FVec Ideal ⟨2, ![R, n]⟩ .f32) (b : BitVec 32)
    (h : (⟨0, ![]⟩ : Shape).BroadcastsInDim ⟨2, ![R, n]⟩ ![]) (p : Fin R) :
    row (maximumf A (broadcastInDim ⟨2, ![R, n]⟩ ![] h (constant (F := Ideal) ⟨0, ![]⟩ .f32 b))) p
      = floorAt (Ideal.ofBits .f32 b) (row A p) := by
  funext c
  show max (A (ix2 p c)) _ = max (A (ix2 p c)) _
  congr 1

/-- A cast of an array to its own shape changes nothing. -/
theorem row_shapeCast_self {R n : Nat} (A : (⟨2, ![R, n]⟩ : Shape).Idx → EReal)
    (h : (⟨2, ![R, n]⟩ : Shape).ShapeCasts ⟨2, ![R, n]⟩) (p : Fin R) :
    row (shapeCast ⟨2, ![R, n]⟩ A h) p = row A p := by
  rw [shapeCast_self]

theorem mat_shapeCast_self {K N : Nat} (B : (⟨2, ![K, N]⟩ : Shape).Idx → EReal)
    (h : (⟨2, ![K, N]⟩ : Shape).ShapeCasts ⟨2, ![K, N]⟩) :
    mat (shapeCast ⟨2, ![K, N]⟩ B h) = mat B := by
  rw [shapeCast_self]

/-- An `[R, 1]` column flattened to an `[R]` vector and stood up again as an `[R, 1]` column is the column it was. -/
theorem row_column_roundtrip {R : Nat} (hR : R ≠ 1) (A : (⟨2, ![R, 1]⟩ : Shape).Idx → EReal)
    (h₁ : (⟨2, ![R, 1]⟩ : Shape).ShapeCasts ⟨1, ![R]⟩)
    (h₂ : (⟨1, ![R]⟩ : Shape).BroadcastsInDim ⟨2, ![R, 1]⟩ ![0]) (p : Fin R) :
    row (broadcastInDim ⟨2, ![R, 1]⟩ ![0] h₂ (shapeCast ⟨1, ![R]⟩ A h₁)) p = row A p := by
  funext k
  show broadcastInDim ⟨2, ![R, 1]⟩ ![0] h₂ (shapeCast ⟨1, ![R]⟩ A h₁) (ix2 p k) = A (ix2 p k)
  rw [broadcastInDim_apply ![0] h₂ _ (ix2 p k) (ix1 p) (fun a => by
    match a with
    | ⟨0, _⟩ => show p.val = if R = 1 then 0 else p.val; rw [if_neg hR])]
  refine shapeCast_apply A h₁ (ix1 p) (ix2 p k) ?_
  rw [Shape.rowMajor_val_two, Shape.rowMajor_val_one]
  show p.val * 1 + k.val = p.val
  have := k.isLt
  omega

/-- A block of `k` columns at `off` lies inside the row. -/
theorem slice_le {R n k off : Nat} (h : (⟨2, ![R, n]⟩ : Shape).Slices ![0, off] ⟨2, ![R, k]⟩) : off + k ≤ n :=
  h.2 1

/-- A block of columns `off ≤ · < off + k` of every row. -/
theorem row_slice {R n k : Nat} (off : Nat) (A : (⟨2, ![R, n]⟩ : Shape).Idx → EReal)
    (h : (⟨2, ![R, n]⟩ : Shape).Slices ![0, off] ⟨2, ![R, k]⟩) (p : Fin R) :
    row (extractStridedSlice ⟨2, ![R, k]⟩ ![0, off] A h) p = cols off k (slice_le h) (row A p) := by
  funext j
  show extractStridedSlice ⟨2, ![R, k]⟩ ![0, off] A h (ix2 p j) = A (ix2 p ⟨off + j.val, _⟩)
  refine extractStridedSlice_apply ![0, off] A h (ix2 p j) _ (fun a => ?_)
  match a with
  | ⟨0, _⟩ => show p.val = 0 + p.val; omega
  | ⟨1, _⟩ => rfl

/-- The joined width is the sum of the two widths. -/
theorem concat_width {R a b c : Nat}
    (h : Shape.Concatenates [(⟨2, ![R, a]⟩ : Shape), ⟨2, ![R, b]⟩] ⟨2, ![R, c]⟩ 1) : c = a + b := by
  have := h.2.2
  simpa using this.symm

/-- Two arrays side by side: every row is the two rows end to end. -/
theorem row_concat {R a b c : Nat} (A : (⟨2, ![R, a]⟩ : Shape).Idx → EReal) (B : (⟨2, ![R, b]⟩ : Shape).Idx → EReal)
    (h : Shape.Concatenates [(⟨2, ![R, a]⟩ : Shape), ⟨2, ![R, b]⟩] ⟨2, ![R, c]⟩ 1) (p : Fin R) :
    row (concatenate ⟨2, ![R, c]⟩ 1 [⟨⟨2, ![R, a]⟩, A⟩, ⟨⟨2, ![R, b]⟩, B⟩] h) p
      = join (concat_width h) (row A p) (row B p) := by
  have hc := concat_width h
  funext q
  unfold join
  by_cases hq : q.val < a
  · rw [dif_pos hq]
    exact SideBySide.apply_left A B h p q hq
  · rw [dif_neg hq]
    exact SideBySide.apply_right A B h p q (by omega) (by have := q.isLt; omega)

end Idealize.ShloMosaic.Rowwise

end
-- ==== Proof.PointNet.lean ====
/-
  The network this certificate is about, as a function of ONE input row.

  Every sample is a row of six numbers: three coordinates of a point and three of a viewing direction. A first
  network of three bias-free layers (3 → 64 → 64 → 16, the first two followed by a maximum with zero) reads the
  point; its output's entry 0 is the density and the other fifteen are features. A second network of four bias-free
  layers (18 → 64 → 64 → 64 → 3, the first three followed by a maximum with zero) reads the direction followed by
  the fifteen features and gives a colour. The result row is the colour followed by the density.

  Each weight matrix enters as the `[in, out]` array the products are taken with (the transposes of the stored
  `[out, in]` parameters, which both programs form in the same way before anything else).
-/
import proofs.«159614_j6957847019903_1_alg».proof.Proof.LibRowwise

noncomputable section

namespace Cert.PointNet

open Idealize.ShloMosaic Idealize.ShloMosaic.Rowwise

/-- The value both programs take maxima with: the f32 word `0x00000000`. -/
def zero : EReal := Ideal.ofBits .f32 0x00000000#32

/-- The first network: the point's three coordinates through three layers. -/
def sigmaNet (x : Fin 6 → EReal) (w0 : Fin 3 → Fin 64 → EReal) (w1 : Fin 64 → Fin 64 → EReal)
    (w2 : Fin 64 → Fin 16 → EReal) : Fin 16 → EReal :=
  dense (floorAt zero (dense (floorAt zero (dense (cols 0 3 (by decide) x) w0)) w1)) w2

/-- What the second network reads: the direction's three coordinates, then features 1 to 15 of the first network. -/
def colorIn (x : Fin 6 → EReal) (h : Fin 16 → EReal) : Fin 18 → EReal :=
  join (n₁ := 3) (n₂ := 15) rfl (cols 3 3 (by decide) x) (cols 1 15 (by decide) h)

/-- The second network: four layers. -/
def colorNet (g : Fin 18 → EReal) (c0 : Fin 18 → Fin 64 → EReal) (c1 c2 : Fin 64 → Fin 64 → EReal)
    (c3 : Fin 64 → Fin 3 → EReal) : Fin 3 → EReal :=
  dense (floorAt zero (dense (floorAt zero (dense (floorAt zero (dense g c0)) c1)) c2)) c3

/-- The result row: the colour, then the density (entry 0 of the first network). -/
def outRow (x : Fin 6 → EReal) (w0 : Fin 3 → Fin 64 → EReal) (w1 : Fin 64 → Fin 64 → EReal) (w2 : Fin 64 → Fin 16 → EReal)
    (c0 : Fin 18 → Fin 64 → EReal) (c1 c2 : Fin 64 → Fin 64 → EReal) (c3 : Fin 64 → Fin 3 → EReal) : Fin 4 → EReal :=
  join (n₁ := 3) (n₂ := 1) rfl (colorNet (colorIn x (sigmaNet x w0 w1 w2)) c0 c1 c2 c3)
    (cols 0 1 (by decide) (sigmaNet x w0 w1 w2))

/-- The whole result array: row `r` is `outRow` of row `r` of the samples. -/
def outArray (X : (⟨2, ![1048576, 6]⟩ : Shape).Idx → EReal) (W0 : (⟨2, ![3, 64]⟩ : Shape).Idx → EReal)
    (W1 : (⟨2, ![64, 64]⟩ : Shape).Idx → EReal) (W2 : (⟨2, ![64, 16]⟩ : Shape).Idx → EReal)
    (C0 : (⟨2, ![18, 64]⟩ : Shape).Idx → EReal) (C1 C2 : (⟨2, ![64, 64]⟩ : Shape).Idx → EReal)
    (C3 : (⟨2, ![64, 3]⟩ : Shape).Idx → EReal) : (⟨2, ![1048576, 4]⟩ : Shape).Idx → EReal :=
  fun i => outRow (row X (i 0)) (mat W0) (mat W1) (mat W2) (mat C0) (mat C1) (mat C2) (mat C3) (i 1)

end Cert.PointNet

end
-- ==== Proof.KernelRow.lean ====
/-
  The kernel's body, one row at a time.

  At a grid point the body holds a block of 4096 sample rows and the seven weight arrays. Its stored block is, row by
  row, `PointNet.outRow` of that sample row: the products are taken into zero accumulators (sums over the shared
  axis), the narrowing of operands to bf16 is the identity at the ideal instance, and the slices and side-by-side
  joins act inside each row.
-/
import proofs.«159614_j6957847019903_1_alg».proof.Proof.Gen.KernelIdeal.Skeleton
import proofs.«159614_j6957847019903_1_alg».proof.Proof.PointNet

noncomputable section

namespace Cert.KernelIdeal.RowValue

open Cert.KernelIdeal Cert.KernelIdeal.Gen Idealize.ShloMosaic Idealize.ShloMosaic.Rowwise Cert.PointNet

/-! The products' dimension records are the plain `M×K` by `K×N` ones. -/

theorem dims_3_64 : dot_S4096x3_S3x64_S4096x64_1_0_0_1_n_n = DotDims.plain 4096 3 64 := rfl
theorem dims_64_64 : dot_S4096x64_S64x64_S4096x64_1_0_0_1_n_n = DotDims.plain 4096 64 64 := rfl
theorem dims_64_16 : dot_S4096x64_S64x16_S4096x16_1_0_0_1_n_n = DotDims.plain 4096 64 16 := rfl
theorem dims_18_64 : dot_S4096x18_S18x64_S4096x64_1_0_0_1_n_n = DotDims.plain 4096 18 64 := rfl
theorem dims_64_3 : dot_S4096x64_S64x3_S4096x3_1_0_0_1_n_n = DotDims.plain 4096 64 3 := rfl

/-- The first network's output block: row `p` is `sigmaNet` of sample row `p`. -/
theorem sigma_row (v0 : Vec Ideal S4096x6 .f32) (v3 : Vec Ideal S3x64 .f32) (v6 : Vec Ideal S64x64 .f32)
    (v9 : Vec Ideal S64x16 .f32) (p : Fin 4096) :
    row (k0_pay6 v0 v3 v6 v9) p = sigmaNet (row v0 p) (mat v3) (mat v6) (mat v9) := by
  unfold k0_pay6 sigmaNet
  simp only [dims_3_64, dims_64_64, dims_64_16, row_matmul, row_truncf, mat_truncf, row_maximumf_broadcast, row_slice,
    row_shapeCast_self, mat_shapeCast_self]
  rfl

/-- The density column: entry 0 of the first network's output row. -/
theorem density_row (v0 : Vec Ideal S4096x6 .f32) (v3 : Vec Ideal S3x64 .f32) (v6 : Vec Ideal S64x64 .f32)
    (v9 : Vec Ideal S64x16 .f32) (p : Fin 4096) :
    row (k0_pay7 v0 v3 v6 v9) p = cols 0 1 (by decide) (sigmaNet (row v0 p) (mat v3) (mat v6) (mat v9)) := by
  unfold k0_pay7
  simp only [row_slice, sigma_row]

/-- What the second network reads: the direction, then features 1 to 15. -/
theorem colorIn_row (v0 : Vec Ideal S4096x6 .f32) (v3 : Vec Ideal S3x64 .f32) (v6 : Vec Ideal S64x64 .f32)
    (v9 : Vec Ideal S64x16 .f32) (p : Fin 4096) :
    row (k0_pay8 v0 v3 v6 v9) p = colorIn (row v0 p) (sigmaNet (row v0 p) (mat v3) (mat v6) (mat v9)) := by
  unfold k0_pay8 colorIn
  simp only [row_truncf, row_concat, row_slice, sigma_row]

/-- The stored block from the second network's input `g`, its four weight arrays and the density column `d`. -/
theorem store_row (v14 : FVec Ideal S18x64 .bf16) (v17 v20 : FVec Ideal S64x64 .bf16) (v23 : FVec Ideal S64x3 .bf16)
    (d : FVec Ideal S4096x1 .f32) (g : FVec Ideal S4096x18 .bf16) (p : Fin 4096) :
    row (k0_pay1 v14 v17 v20 v23 d g) p
      = join (n₁ := 3) (n₂ := 1) rfl (colorNet (row g p) (mat v14) (mat v17) (mat v20) (mat v23)) (row d p) := by
  unfold k0_pay1 colorNet
  simp only [dims_18_64, dims_64_64, dims_64_3, row_matmul, row_truncf, row_maximumf_broadcast, row_concat]
  rfl

theorem mat_pay2 (v : Vec Ideal S18x64 .f32) : mat (k0_pay2 v) = mat v := by
  unfold k0_pay2; simp only [mat_truncf, mat_shapeCast_self]
theorem mat_pay3 (v : Vec Ideal S64x64 .f32) : mat (k0_pay3 v) = mat v := by
  unfold k0_pay3; simp only [mat_truncf, mat_shapeCast_self]
theorem mat_pay4 (v : Vec Ideal S64x64 .f32) : mat (k0_pay4 v) = mat v := by
  unfold k0_pay4; simp only [mat_truncf, mat_shapeCast_self]
theorem mat_pay5 (v : Vec Ideal S64x3 .f32) : mat (k0_pay5 v) = mat v := by
  unfold k0_pay5; simp only [mat_truncf, mat_shapeCast_self]

/-- THE BODY'S STORED BLOCK, row by row: `outRow` of the sample row and the seven weight arrays. -/
theorem body_row (x0 : Vec Ideal S4096x6 .f32) (x1 : Vec Ideal S3x64 .f32) (x2 : Vec Ideal S64x64 .f32)
    (x3 : Vec Ideal S64x16 .f32) (x4 : Vec Ideal S18x64 .f32) (x5 x6 : Vec Ideal S64x64 .f32) (x7 : Vec Ideal S64x3 .f32)
    (p : Fin 4096) :
    row (k0_pay1 (k0_pay2 x4) (k0_pay3 x5) (k0_pay4 x6) (k0_pay5 x7) (k0_pay7 x0 x1 x2 x3) (k0_pay8 x0 x1 x2 x3)) p
      = outRow (row x0 p) (mat x1) (mat x2) (mat x3) (mat x4) (mat x5) (mat x6) (mat x7) := by
  rw [store_row, colorIn_row, density_row, mat_pay2, mat_pay3, mat_pay4, mat_pay5]
  rfl

end Cert.KernelIdeal.RowValue

end
-- ==== Proof.KernelArray.lean ====
/-
  From the kernel's blocks to its result array.

  The grid has 256 points; point `t` reads rows `4096 t … 4096 t + 4095` of the samples and every weight array whole,
  and writes rows `4096 t … 4096 t + 4095` of the result. The body's block is, row by row, `PointNet.outRow` of the
  sample row, so what point `t` writes back is block `t` of `PointNet.outArray`; the 256 blocks cover the result array.
-/
import proofs.«159614_j6957847019903_1_alg».proof.Proof.Gen.KernelIdeal.Value
import proofs.«159614_j6957847019903_1_alg».proof.Proof.KernelRow
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.Rowwise Idealize.ShloMosaic.ValueIdx Cert.PointNet

variable (m : (ℓ : Loc nD τ sig) → Buf (Elt Ideal) ℓ) (ρ : Dev nD → PrngReg)

/-! ## The arrays the region finds -/

abbrev samples (c : Dev nD) : Vec Ideal S1048576x6 .f32 := V m c main_arg0
abbrev sw0t (c : Dev nD) : Vec Ideal S3x64 .f32 := V m c main_v0
abbrev sw1t (c : Dev nD) : Vec Ideal S64x64 .f32 := V m c main_v1
abbrev sw2t (c : Dev nD) : Vec Ideal S64x16 .f32 := V m c main_v2
abbrev cw0t (c : Dev nD) : Vec Ideal S18x64 .f32 := V m c main_v3
abbrev cw1t (c : Dev nD) : Vec Ideal S64x64 .f32 := V m c main_v4
abbrev cw2t (c : Dev nD) : Vec Ideal S64x64 .f32 := V m c main_v5
abbrev cw3t (c : Dev nD) : Vec Ideal S64x3 .f32 := V m c main_v6

/-- The result array as one function of those arrays. -/
def result (c : Dev nD) : Vec Ideal S1048576x4 .f32 :=
  outArray (samples m c) (sw0t m c) (sw1t m c) (sw2t m c) (cw0t m c) (cw1t m c) (cw2t m c) (cw3t m c)

/-! ## The index maps, decided over the 256 points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem hz : (![0, 0] : Fin 2 → Nat) = fun _ => 0 := funext fun a => by fin_cases a <;> rfl

/-! ## The input blocks -/

/-- Row `p` of the sample block at point `t` is row `4096 t + p` of the samples. -/
theorem sample_block_row (c : Dev nD) (t : Fin cfg0.N) (p : Fin 4096) (r : Fin 1048576) (hr : r.val = t.val * 4096 + p.val) :
    row (iblk m c 0 t : Vec Ideal S4096x6 .f32) p = row (samples m c) r := by
  obtain ⟨e0, e1, -⟩ := idx_facts t
  funext k
  show V m c main_arg0 (((cfg0.win 0).blk t).view.emb (ix2 p k)) = V m c main_arg0 (ix2 r k)
  congr 1
  funext a; apply Fin.ext
  match a with
  | ⟨0, _⟩ => show win0_0.index t (0 : Fin 2) * 4096 + 1 * p.val = r.val; omega
  | ⟨1, _⟩ => show win0_0.index t (1 : Fin 2) * 6 + 1 * k.val = k.val; omega

/-- Each weight window's block is its whole array, at every point. -/
theorem sw0t_block (c : Dev nD) (t : Fin cfg0.N) : (iblk m c 1 t : Vec Ideal S3x64 .f32) = sw0t m c := by
  obtain ⟨-, -, e0, e1, -⟩ := idx_facts t
  funext y
  show V m c main_v0 (((cfg0.win 1).blk t).view.emb y) = V m c main_v0 y
  congr 1
  funext a; apply Fin.ext
  match a with
  | ⟨0, _⟩ => show win0_1.index t (0 : Fin 2) * 3 + 1 * (y 0).val = (y 0).val; omega
  | ⟨1, _⟩ => show win0_1.index t (1 : Fin 2) * 64 + 1 * (y 1).val = (y 1).val; omega

theorem sw1t_block (c : Dev nD) (t : Fin cfg0.N) : (iblk m c 2 t : Vec Ideal S64x64 .f32) = sw1t m c := by
  obtain ⟨-, -, -, -, e0, e1, -⟩ := idx_facts t
  funext y
  show V m c main_v1 (((cfg0.win 2).blk t).view.emb y) = V m c main_v1 y
  congr 1
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem sw2t_block (c : Dev nD) (t : Fin cfg0.N) : (iblk m c 3 t : Vec Ideal S64x16 .f32) = sw2t m c := by
  obtain ⟨-, -, -, -, -, -, e0, e1, -⟩ := idx_facts t
  funext y
  show V m c main_v2 (((cfg0.win 3).blk t).view.emb y) = V m c main_v2 y
  congr 1
  funext a; apply Fin.ext
  match a with
  | ⟨0, _⟩ => show win0_3.index t (0 : Fin 2) * 64 + 1 * (y 0).val = (y 0).val; omega
  | ⟨1, _⟩ => show win0_3.index t (1 : Fin 2) * 16 + 1 * (y 1).val = (y 1).val; omega

theorem cw0t_block (c : Dev nD) (t : Fin cfg0.N) : (iblk m c 4 t : Vec Ideal S18x64 .f32) = cw0t m c := by
  obtain ⟨-, -, -, -, -, -, -, -, e0, e1, -⟩ := idx_facts t
  funext y
  show V m c main_v3 (((cfg0.win 4).blk t).view.emb y) = V m c main_v3 y
  congr 1
  funext a; apply Fin.ext
  match a with
  | ⟨0, _⟩ => show win0_4.index t (0 : Fin 2) * 18 + 1 * (y 0).val = (y 0).val; omega
  | ⟨1, _⟩ => show win0_4.index t (1 : Fin 2) * 64 + 1 * (y 1).val = (y 1).val; omega

theorem cw1t_block (c : Dev nD) (t : Fin cfg0.N) : (iblk m c 5 t : Vec Ideal S64x64 .f32) = cw1t m c := by
  obtain ⟨-, -, -, -, -, -, -, -, -, -, e0, e1, -⟩ := idx_facts t
  funext y
  show V m c main_v4 (((cfg0.win 5).blk t).view.emb y) = V m c main_v4 y
  congr 1
  funext a; apply Fin.ext
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem cw2t_block (c : Dev nD) (t : Fin cfg0.N) : (iblk m c 6 t : Vec Ideal S64x64 .f32) = cw2t m c := by
  obtain ⟨-, -, -, -, -, -, -, -, -, -, -, -, e0, e1, -⟩ := idx_facts t
  funext y
  show V m c main_v5 (((cfg0.win 6).blk t).view.emb y) = V m c main_v5 y
  congr 1
  funext a; apply Fin.ext
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem cw3t_block (c : Dev nD) (t : Fin cfg0.N) : (iblk m c 7 t : Vec Ideal S64x3 .f32) = cw3t m c := by
  obtain ⟨-, -, -, -, -, -, -, -, -, -, -, -, -, -, e0, e1, -⟩ := idx_facts t
  funext y
  show V m c main_v6 (((cfg0.win 7).blk t).view.emb y) = V m c main_v6 y
  congr 1
  funext a; apply Fin.ext
  match a with
  | ⟨0, _⟩ => show win0_7.index t (0 : Fin 2) * 64 + 1 * (y 0).val = (y 0).val; omega
  | ⟨1, _⟩ => show win0_7.index t (1 : Fin 2) * 3 + 1 * (y 1).val = (y 1).val; omega

/-! ## From blocks to the array -/

/-- WHAT POINT `t` WRITES BACK is block `t` of `result`. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero hz]
  simp only [View.ld_unit_zero (S := S4096x6) hz, View.ld_unit_zero (S := S3x64) hz, View.ld_unit_zero (S := S64x64) hz,
    View.ld_unit_zero (S := S64x16) hz, View.ld_unit_zero (S := S18x64) hz, View.ld_unit_zero (S := S64x3) hz]
  funext j
  obtain ⟨p, q, rfl⟩ : ∃ (p : Fin 4096) (q : Fin 4), j = ix2 p q := ⟨j 0, j 1, eq_ix2 j⟩
  obtain ⟨-, -, -, -, -, -, -, -, -, -, -, -, -, -, -, -, e0, e1⟩ := idx_facts t
  have hN : t.val < 256 := Nat.lt_of_lt_of_eq t.isLt N_0
  have hp : p.val < 4096 := p.isLt
  have hemb : ((cfg0.win 8).blk t).view.emb (ix2 p q) = ix2 (⟨t.val * 4096 + p.val, by omega⟩ : Fin 1048576) q := by
    funext a; apply Fin.ext
    match a with
    | ⟨0, _⟩ => show win0_8.index t (0 : Fin 2) * 4096 + 1 * p.val = t.val * 4096 + p.val; omega
    | ⟨1, _⟩ => show win0_8.index t (1 : Fin 2) * 4 + 1 * q.val = q.val; omega
  show row (k0_pay1 (k0_pay2 (iblk m c 4 t)) (k0_pay3 (iblk m c 5 t)) (k0_pay4 (iblk m c 6 t)) (k0_pay5 (iblk m c 7 t))
        (k0_pay7 (iblk m c 0 t) (iblk m c 1 t) (iblk m c 2 t) (iblk m c 3 t))
        (k0_pay8 (iblk m c 0 t) (iblk m c 1 t) (iblk m c 2 t) (iblk m c 3 t))) p q
      = result m c (((cfg0.win 8).blk t).view.emb (ix2 p q))
  rw [hemb, RowValue.body_row, sample_block_row m c t p ⟨t.val * 4096 + p.val, by omega⟩ rfl, sw0t_block, sw1t_block,
    sw2t_block, cw0t_block, cw1t_block, cw2t_block, cw3t_block]
  rfl

/-- An index of the result array is in point `t`'s block iff each coordinate is in the block's range on its axis. -/
theorem mem_blk (t : Fin cfg0.N) (i : S1048576x4.Idx) :
    i ∈ ((cfg0.win 8).blk t).view.set ↔ ∀ a : Fin 2, win0_8.index t a * S4096x4.size a ≤ (i a).val ∧ (i a).val < win0_8.index t a * S4096x4.size a + S4096x4.size a := by
  show i ∈ ((View.whole main_v7).slice (win0_8.rect t)).set ↔ _
  rw [View.set_slice_whole, Rect.mem_set_unit]
  exact Iff.rfl

/-- Every index of the result array is in some point's block: row `r` is in block `r / 4096`. -/
theorem cover (i : S1048576x4.Idx) : ∃ t : Fin cfg0.N, (cfg0.win 8).flush t = true ∧ i ∈ ((cfg0.win 8).blk t).view.set := by
  have hi0 : (i 0).val < 1048576 := (i 0).isLt
  have hi1 : (i 1).val < 4 := (i 1).isLt
  have hlt : (i 0).val / 4096 < cfg0.N := by rw [show cfg0.N = 256 from N_0]; omega
  refine ⟨⟨(i 0).val / 4096, hlt⟩, flush0_8 _, ?_⟩
  obtain ⟨-, -, -, -, -, -, -, -, -, -, -, -, -, -, -, -, e0, e1⟩ := idx_facts ⟨(i 0).val / 4096, hlt⟩
  rw [mem_blk]
  intro a
  match a with
  | ⟨0, _⟩ =>
    show win0_8.index ⟨(i 0).val / 4096, hlt⟩ (0 : Fin 2) * 4096 ≤ (i 0).val ∧ (i 0).val < win0_8.index ⟨(i 0).val / 4096, hlt⟩ (0 : Fin 2) * 4096 + 4096
    rw [e0]
    show (i 0).val / 4096 * 4096 ≤ (i 0).val ∧ (i 0).val < (i 0).val / 4096 * 4096 + 4096
    omega
  | ⟨1, _⟩ =>
    show win0_8.index ⟨(i 0).val / 4096, hlt⟩ (1 : Fin 2) * 4 ≤ (i 1).val ∧ (i 1).val < win0_8.index ⟨(i 0).val / 4096, hlt⟩ (1 : Fin 2) * 4 + 4
    omega

/-- THE RESULT ARRAY after the run is `result`. -/
theorem final (c : Dev nD) : (dats m 0 c).arrAt 8 cfg0.N = result m c :=
  (dats m 0 c).arrAt_eq_of_cover 8 (result m c) (fun t _ => flushed_eq m c t) cover

/-! ## The arrays the region finds, from the arguments -/

theorem samples_eq (c : Dev nD) : samples m c = m ((c : Thread nD τ).loc main_arg0) := V_main_arg0 m c

theorem sw0t_eq (c : Dev nD) :
    sw0t m c = transpose S3x64 [1, 0] (m ((c : Thread nD τ).loc main_arg1)) transposes_S64x3_S3x64_1_0 := by
  show (V m c main_v0 : S3x64.Idx → EReal) = _
  dsimp only [Gen.V, Gen.hostOps0]; after_results

theorem sw1t_eq (c : Dev nD) :
    sw1t m c = transpose S64x64 [1, 0] (m ((c : Thread nD τ).loc main_arg2)) transposes_S64x64_S64x64_1_0 := by
  show (V m c main_v1 : S64x64.Idx → EReal) = _
  dsimp only [Gen.V, Gen.hostOps0]; after_results

theorem sw2t_eq (c : Dev nD) :
    sw2t m c = transpose S64x16 [1, 0] (m ((c : Thread nD τ).loc main_arg3)) transposes_S16x64_S64x16_1_0 := by
  show (V m c main_v2 : S64x16.Idx → EReal) = _
  dsimp only [Gen.V, Gen.hostOps0]; after_results

theorem cw0t_eq (c : Dev nD) :
    cw0t m c = transpose S18x64 [1, 0] (m ((c : Thread nD τ).loc main_arg4)) transposes_S64x18_S18x64_1_0 := by
  show (V m c main_v3 : S18x64.Idx → EReal) = _
  dsimp only [Gen.V, Gen.hostOps0]; after_results

theorem cw1t_eq (c : Dev nD) :
    cw1t m c = transpose S64x64 [1, 0] (m ((c : Thread nD τ).loc main_arg5)) transposes_S64x64_S64x64_1_0 := by
  show (V m c main_v4 : S64x64.Idx → EReal) = _
  dsimp only [Gen.V, Gen.hostOps0]; after_results

theorem cw2t_eq (c : Dev nD) :
    cw2t m c = transpose S64x64 [1, 0] (m ((c : Thread nD τ).loc main_arg6)) transposes_S64x64_S64x64_1_0 := by
  show (V m c main_v5 : S64x64.Idx → EReal) = _
  dsimp only [Gen.V, Gen.hostOps0]; after_results

theorem cw3t_eq (c : Dev nD) :
    cw3t m c = transpose S64x3 [1, 0] (m ((c : Thread nD τ).loc main_arg7)) transposes_S3x64_S64x3_1_0 := by
  show (V m c main_v6 : S64x3.Idx → EReal) = _
  dsimp only [Gen.V, Gen.hostOps0]; after_results

/-- The result array as a function of the ARGUMENTS: `outArray` of the samples and the seven transposed parameters. -/
def resultOfArgs (c : Dev nD) : Vec Ideal S1048576x4 .f32 :=
  outArray (m ((c : Thread nD τ).loc main_arg0))
    (transpose S3x64 [1, 0] (m ((c : Thread nD τ).loc main_arg1)) transposes_S64x3_S3x64_1_0)
    (transpose S64x64 [1, 0] (m ((c : Thread nD τ).loc main_arg2)) transposes_S64x64_S64x64_1_0)
    (transpose S64x16 [1, 0] (m ((c : Thread nD τ).loc main_arg3)) transposes_S16x64_S64x16_1_0)
    (transpose S18x64 [1, 0] (m ((c : Thread nD τ).loc main_arg4)) transposes_S64x18_S18x64_1_0)
    (transpose S64x64 [1, 0] (m ((c : Thread nD τ).loc main_arg5)) transposes_S64x64_S64x64_1_0)
    (transpose S64x64 [1, 0] (m ((c : Thread nD τ).loc main_arg6)) transposes_S64x64_S64x64_1_0)
    (transpose S64x3 [1, 0] (m ((c : Thread nD τ).loc main_arg7)) transposes_S3x64_S64x3_1_0)

theorem result_eq (c : Dev nD) : result m c = resultOfArgs m c := by
  unfold result resultOfArgs
  rw [samples_eq, sw0t_eq, sw1t_eq, sw2t_eq, cw0t_eq, cw1t_eq, cw2t_eq, cw3t_eq]

/-! ## The run, read -/

/-- Every weakly fair execution of the kernel program ends with the result array at `resultOfArgs` and the arguments
    as they were. -/
theorem run : θ_run defs (onTc (τ := τ) (main (F := Ideal))) ⟨m, fun _ => 0, ρ⟩ fun r => ∀ c : Dev nD,
      r.2.mem ((c : Thread nD τ).loc main_v7) = resultOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (result_eq m c)), (h c).2⟩)
    (Value.run_blocks m ρ)

end Cert.KernelIdeal.ArrayValue

end
-- ==== Proof.ReferenceRow.lean ====
/-
  The reference, one row at a time.

  The reference applies the same layers to all 1048576 sample rows at once, on the host: the products are
  `dot_general`s (the same sums over the shared axis), each maximum is taken with a rank-0 zero laid over the array,
  and the density column is flattened to a vector and stood up again before it is joined on. Row `r` of its result is
  `PointNet.outRow` of sample row `r`, the weight arrays being the transposes the program forms first.
-/
import proofs.«159614_j6957847019903_1_alg».proof.Proof.Gen.ReferenceIdeal.Read
import proofs.«159614_j6957847019903_1_alg».proof.Proof.PointNet

noncomputable section

namespace Cert.ReferenceIdeal.RowValue

open Cert.ReferenceIdeal Cert.ReferenceIdeal.Gen Cert.ReferenceIdeal.Read Idealize.ShloMosaic Idealize.ShloMosaic.Rowwise
open Cert.PointNet

/-! The products' dimension records are the plain `M×K` by `K×N` ones. -/

theorem dims_3_64 : dot_S1048576x3_S3x64_S1048576x64_1_0_0_1_n_n = DotDims.plain 1048576 3 64 := rfl
theorem dims_64_64 : dot_S1048576x64_S64x64_S1048576x64_1_0_0_1_n_n = DotDims.plain 1048576 64 64 := rfl
theorem dims_64_16 : dot_S1048576x64_S64x16_S1048576x16_1_0_0_1_n_n = DotDims.plain 1048576 64 16 := rfl
theorem dims_18_64 : dot_S1048576x18_S18x64_S1048576x64_1_0_0_1_n_n = DotDims.plain 1048576 18 64 := rfl
theorem dims_64_3 : dot_S1048576x64_S64x3_S1048576x3_1_0_0_1_n_n = DotDims.plain 1048576 64 3 := rfl

variable (x0 : (⟨S1048576x6, .f32⟩ : BufTy).Contents (Elt Ideal)) (x1 : (⟨S64x3, .f32⟩ : BufTy).Contents (Elt Ideal))
  (x2 : (⟨S64x64, .f32⟩ : BufTy).Contents (Elt Ideal)) (x3 : (⟨S16x64, .f32⟩ : BufTy).Contents (Elt Ideal))
  (x4 : (⟨S64x18, .f32⟩ : BufTy).Contents (Elt Ideal)) (x5 x6 : (⟨S64x64, .f32⟩ : BufTy).Contents (Elt Ideal))
  (x7 : (⟨S3x64, .f32⟩ : BufTy).Contents (Elt Ideal))

/-- The first network's output: row `r` is `sigmaNet` of sample row `r`. -/
theorem sigma_row (r : Fin 1048576) :
    row (val_main_v9 (F := Ideal) x0 x1 x2 x3) r
      = sigmaNet (row x0 r) (mat (val_main_v2 (F := Ideal) x1)) (mat (val_main_v5 (F := Ideal) x2)) (mat (val_main_v8 (F := Ideal) x3)) := by
  unfold val_main_v9 val_main_v7 val_main_v6 val_main_v4 val_main_v3 val_main_v0 val_main_call0_v0 val_main_call0_cst
    val_main_call1_v0 val_main_call1_cst sigmaNet
  rw [dims_3_64, dims_64_64, dims_64_16, row_dotGeneral, row_maximumf_scalarConstant, row_dotGeneral,
    row_maximumf_scalarConstant, row_dotGeneral, row_slice]
  rfl

/-- The density column, after its trip through a vector: entry 0 of the first network's output row. -/
theorem density_row (r : Fin 1048576) :
    row (val_main_v25 (F := Ideal) x0 x1 x2 x3) r
      = cols 0 1 (by decide) (sigmaNet (row x0 r) (mat (val_main_v2 (F := Ideal) x1)) (mat (val_main_v5 (F := Ideal) x2)) (mat (val_main_v8 (F := Ideal) x3))) := by
  unfold val_main_v25 val_main_v11 val_main_v10
  rw [row_column_roundtrip (by decide)]
  simp only [row_slice, sigma_row]

/-- What the second network reads: the direction, then features 1 to 15. -/
theorem colorIn_row (r : Fin 1048576) :
    row (val_main_v13 (F := Ideal) x0 x1 x2 x3) r
      = colorIn (row x0 r) (sigmaNet (row x0 r) (mat (val_main_v2 (F := Ideal) x1)) (mat (val_main_v5 (F := Ideal) x2)) (mat (val_main_v8 (F := Ideal) x3))) := by
  unfold val_main_v13 val_main_v12 val_main_v1 colorIn
  simp only [row_concat, row_slice, sigma_row]

/-- The colour: the second network of what it reads. -/
theorem color_row (r : Fin 1048576) :
    row (val_main_v24 (F := Ideal) x0 x1 x2 x3 x4 x5 x6 x7) r
      = colorNet (row (val_main_v13 (F := Ideal) x0 x1 x2 x3) r) (mat (val_main_v14 (F := Ideal) x4)) (mat (val_main_v17 (F := Ideal) x5))
          (mat (val_main_v20 (F := Ideal) x6)) (mat (val_main_v23 (F := Ideal) x7)) := by
  unfold val_main_v24 val_main_v22 val_main_v21 val_main_v19 val_main_v18 val_main_v16 val_main_v15 val_main_call2_v0
    val_main_call2_cst val_main_call3_v0 val_main_call3_cst val_main_call4_v0 val_main_call4_cst colorNet
  rw [dims_18_64, dims_64_64, dims_64_3, row_dotGeneral, row_maximumf_scalarConstant, row_dotGeneral,
    row_maximumf_scalarConstant, row_dotGeneral, row_maximumf_scalarConstant, row_dotGeneral]
  rfl

/-- THE REFERENCE'S RESULT, row by row: `outRow` of the sample row and the seven transposed weight arrays. -/
theorem result_row (r : Fin 1048576) :
    row (val_main_v26 (F := Ideal) x0 x1 x2 x3 x4 x5 x6 x7) r
      = outRow (row x0 r) (mat (val_main_v2 (F := Ideal) x1)) (mat (val_main_v5 (F := Ideal) x2)) (mat (val_main_v8 (F := Ideal) x3))
          (mat (val_main_v14 (F := Ideal) x4)) (mat (val_main_v17 (F := Ideal) x5)) (mat (val_main_v20 (F := Ideal) x6))
          (mat (val_main_v23 (F := Ideal) x7)) := by
  unfold val_main_v26
  rw [row_concat, color_row, colorIn_row, density_row]
  rfl

/-- So the reference's result array is `outArray` of the samples and the transposed weight arrays. -/
theorem result_eq :
    val_main_v26 (F := Ideal) x0 x1 x2 x3 x4 x5 x6 x7
      = outArray x0 (val_main_v2 (F := Ideal) x1) (val_main_v5 (F := Ideal) x2) (val_main_v8 (F := Ideal) x3)
          (val_main_v14 (F := Ideal) x4) (val_main_v17 (F := Ideal) x5) (val_main_v20 (F := Ideal) x6) (val_main_v23 (F := Ideal) x7) := by
  funext i
  exact (congrArg (val_main_v26 (F := Ideal) x0 x1 x2 x3 x4 x5 x6 x7) (ValueIdx.eq_ix2 i)).trans
    (congrFun (result_row x0 x1 x2 x3 x4 x5 x6 x7 (i 0)) (i 1))

end Cert.ReferenceIdeal.RowValue

end
-- ==== Proof.lean ====
/-
  The kernel and its reference compute the same array, and the kernel's programs run cleanly.

  Both programs apply one small network to each of 1048576 sample rows (Proof/PointNet.lean): three bias-free layers
  3 → 64 → 64 → 16 with a maximum with zero after the first two, then four bias-free layers 18 → 64 → 64 → 64 → 3 with a
  maximum with zero after the first three, fed the viewing direction and fifteen of the sixteen first outputs; the
  result row is the colour followed by the remaining first output. Both first transpose the seven stored `[out, in]`
  parameter arrays. The kernel then works on blocks of 4096 rows, one per grid point, with every product taken into a
  zero accumulator after narrowing its operands to bf16; the reference works on all rows at once with `dot_general`.

  At the ideal instance a change of float format is the identity and each product entry is the sum over the shared axis
  of the products of entries, the same sum on both sides. So row `p` of the kernel's block at point `t` and row
  `4096 t + p` of the reference's result are the same function `PointNet.outRow` of the same sample row and the same
  transposed parameters (Proof/KernelRow.lean, Proof/ReferenceRow.lean), and the kernel's 256 blocks cover the result
  array (Proof/KernelArray.lean). No law of arithmetic beyond this reading is used, so the precondition is never opened.

  The three frames are the generated ones: the two kernel programs' frame theorems, and the reference's generated run
  with its result dropped. The idealization rewrote nothing, so `preserves` is `True`.
-/
import proofs.«159614_j6957847019903_1_alg».proof.Defs
import proofs.«159614_j6957847019903_1_alg».proof.Proof.Gen.Kernel
import proofs.«159614_j6957847019903_1_alg».proof.Proof.Gen.Kernel.Skeleton
import proofs.«159614_j6957847019903_1_alg».proof.Proof.Gen.Kernel.Launch
import proofs.«159614_j6957847019903_1_alg».proof.Proof.Gen.Kernel.Points
import proofs.«159614_j6957847019903_1_alg».proof.Proof.Gen.Kernel.Frame
import proofs.«159614_j6957847019903_1_alg».proof.Proof.Gen.KernelIdeal
import proofs.«159614_j6957847019903_1_alg».proof.Proof.Gen.KernelIdeal.Skeleton
import proofs.«159614_j6957847019903_1_alg».proof.Proof.Gen.KernelIdeal.Launch
import proofs.«159614_j6957847019903_1_alg».proof.Proof.Gen.KernelIdeal.Points
import proofs.«159614_j6957847019903_1_alg».proof.Proof.Gen.KernelIdeal.Frame
import proofs.«159614_j6957847019903_1_alg».proof.Proof.Gen.ReferenceIdeal
import proofs.«159614_j6957847019903_1_alg».proof.Proof.Gen.Pre_finite_inputs
import proofs.«159614_j6957847019903_1_alg».proof.Proof.Gen.KernelIdeal.Value
import proofs.«159614_j6957847019903_1_alg».proof.Proof.Gen.ReferenceIdeal.Run
import proofs.«159614_j6957847019903_1_alg».proof.Proof.Gen.ReferenceIdeal.Read
import proofs.«159614_j6957847019903_1_alg».proof.Proof.KernelArray
import proofs.«159614_j6957847019903_1_alg».proof.Proof.ReferenceRow
import Idealize.ShloMosaic.Adequacy
import Idealize.ShloMosaic.Init

noncomputable section

namespace Cert.Proof

open Idealize.ShloMosaic Idealize.SL.Sem

/-- The kernel program at the word level runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are `PointNet.outArray` of the samples and
    the seven transposed parameter arrays. -/
theorem algebraic : Cert.algebraic_KernelIdeal_ReferenceIdeal := by
  intro m ρ m' ρ' _ hagree
  refine ⟨fun c => Cert.KernelIdeal.ArrayValue.resultOfArgs m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RowValue.result_eq]
  obtain ⟨h0, h1, h2, h3, h4, h5, h6, h7⟩ := hagree c
  rw [h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
